-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x768 : Shape := ⟨3, ![64, 1024, 768]⟩
abbrev S_ : Shape := ⟨0, ![]⟩

class Facts : Prop where
  bcast_S_S64x1024x768 : S_.BroadcastsInDim S64x1024x768 (![] : Fin 0 → Fin S64x1024x768.rank)
  reducesTo_S64x1024x768_S_d0_1_2 : S64x1024x768.ReducesTo [0, 1, 2] S_
  h_S_ : 0 < S_.numel

variable [Facts]

def fn {F : FTy → Type} [FloatOps F] (main_arg0 : FVec F S64x1024x768 .f32) : IVec S_ 1 :=
  let main_v0 : FVec F S64x1024x768 .f32 := Host.absf main_arg0
  let main_cst : FVec F S_ .f32 := constant S_ .f32 0x7F800000#32
  let main_v1 : FVec F S64x1024x768 .f32 := broadcastInDim S64x1024x768 ![] bcast_S_S64x1024x768 main_cst
  let main_v2 : IVec S64x1024x768 1 := cmpf .olt main_v0 main_v1
  let main_c : IVec S_ 1 := constantI S_ 1 1#1
  let main_v3 : IVec S_ 1 := (fun x v => Host.reduce IntOp.andi x v reducesTo_S64x1024x768_S_d0_1_2 h_S_) main_v2 main_c
  main_v3
-- ==== Kernel.lean ====
abbrev S64x1024x768 : Shape := ⟨3, ![64, 1024, 768]⟩
abbrev S64x512x1536 : Shape := ⟨3, ![64, 512, 1536]⟩
abbrev S1x1024x768 : Shape := ⟨3, ![1, 1024, 768]⟩
abbrev S1x512x1536 : Shape := ⟨3, ![1, 512, 1536]⟩
abbrev S1024x768 : Shape := ⟨2, ![1024, 768]⟩
abbrev S32x32x16x48 : Shape := ⟨4, ![32, 32, 16, 48]⟩
abbrev S32x16x32x48 : Shape := ⟨4, ![32, 16, 32, 48]⟩
abbrev S512x1536 : Shape := ⟨2, ![512, 1536]⟩
abbrev S64x512x512x3 : Shape := ⟨4, ![64, 512, 512, 3]⟩

abbrev nBuf : Space → Nat
  | .hbm => 3
  | .vmem => 4
  | .smem => 0
  | _ => 0

abbrev bufTy : (tb : Table) → Fin (tcTables nBuf tb) → BufTy
  | .hbm, ⟨0, _⟩ => ⟨S64x1024x768, .f32⟩
  | .hbm, ⟨1, _⟩ => ⟨S64x512x1536, .f32⟩
  | .hbm, ⟨2, _⟩ => ⟨S64x512x512x3, .f32⟩
  | .local _ .vmem, ⟨0, _⟩ => ⟨S1x1024x768, .f32⟩
  | .local _ .vmem, ⟨1, _⟩ => ⟨S1x1024x768, .f32⟩
  | .local _ .vmem, ⟨2, _⟩ => ⟨S1x512x1536, .f32⟩
  | .local _ .vmem, ⟨3, _⟩ => ⟨S1x512x1536, .f32⟩
  | _, _ => ⟨S64x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024x768_S32x32x16x48 : S1024x768.ShapeCasts S32x32x16x48
  transposes_S32x32x16x48_p0_2_1_3_S32x16x32x48 : S32x32x16x48.Transposes [0, 2, 1, 3] S32x16x32x48
  shapeCasts_S32x16x32x48_S512x1536 : S32x16x32x48.ShapeCasts S512x1536
  inb_S1x512x1536_S1x512x1536_0_0_0 : ∀ a, (![0, 0, 0] : Fin 3 → Nat) a + S1x512x1536.size a ≤ S1x512x1536.size a
  h_S1x512x1536 : 0 < S1x512x1536.numel
  shapeCasts_S1x512x1536_S512x1536 : S1x512x1536.ShapeCasts S512x1536
  shapeCasts_S512x1536_S1x512x1536 : S512x1536.ShapeCasts S1x512x1536
  shapeCasts_S64x512x1536_S64x512x512x3 : S64x512x1536.ShapeCasts S64x512x512x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S64x1024x768.size a
  hwx0_0 : ∀ i : grid0.Coords, EltTy.bits .f32 = 32 ∨ (Rect.block (s := S64x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1536.size a ≤ S64x512x1536.size a
  hwx0_1 : ∀ i : grid0.Coords, EltTy.bits .f32 = 32 ∨ (Rect.block (s := S64x512x1536) S1x512x1536.size (cc0_transform_1 i) (hinb0_1 i)).WholeWords (EltTy.packing .f32)

variable [Facts₀]

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x768 : Shape := ⟨3, ![64, 1024, 768]⟩
abbrev S64x32x32x16x16x3 : Shape := ⟨6, ![64, 32, 32, 16, 16, 3]⟩
abbrev S64x32x16x32x16x3 : Shape := ⟨6, ![64, 32, 16, 32, 16, 3]⟩
abbrev S64x512x512x3 : Shape := ⟨4, ![64, 512, 512, 3]⟩

abbrev nBuf : Space → Nat
  | .hbm => 4
  | .vmem => 0
  | .smem => 0
  | _ => 0

abbrev bufTy : (tb : Table) → Fin (tcTables nBuf tb) → BufTy
  | .hbm, ⟨0, _⟩ => ⟨S64x1024x768, .f32⟩
  | .hbm, ⟨1, _⟩ => ⟨S64x32x32x16x16x3, .f32⟩
  | .hbm, ⟨2, _⟩ => ⟨S64x32x16x32x16x3, .f32⟩
  | .hbm, ⟨3, _⟩ => ⟨S64x512x512x3, .f32⟩
  | _, _ => ⟨S64x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S64x1024x768_S64x32x32x16x16x3 : S64x1024x768.ShapeCasts S64x32x32x16x16x3
  transposes_S64x32x32x16x16x3_S64x32x16x32x16x3_0_1_3_2_4_5 : S64x32x32x16x16x3.Transposes [0, 1, 3, 2, 4, 5] S64x32x16x32x16x3
  shapeCasts_S64x32x16x32x16x3_S64x512x512x3 : S64x32x16x32x16x3.ShapeCasts S64x512x512x3

variable [Facts₀]

class Facts : Prop extends Facts₀ where

variable [Facts]
-- ==== Proof.Layout.lean ====
/-
  The picture a batch of patches assembles into, as ONE function of the patch array, and the two ways the programs
  spell it. Nothing here is arithmetic on elements: every operation is a re-indexing, so every statement holds over
  any element type.

  An image entry `(b, h, w, ch)` of the `64 × 512 × 512 × 3` result lies in patch `(h / 16, w / 16)` of image `b`
  (a `32 × 32` grid of `16 × 16` patches, so patch number `h / 16 * 32 + w / 16`), at pixel `(h % 16, w % 16)` and
  channel `ch` inside it (so position `h % 16 * 48 + (w % 16 * 3 + ch)` of the patch's `768` numbers).
  With the last two image axes merged, `q = w * 3 + ch`, the same entry is patch `h / 16 * 32 + q / 48`, position
  `h % 16 * 48 + q % 48`.

  A reshape keeps row-major position and a transpose permutes coordinates, so each chain below is read by comparing
  row-major positions, which are sums of products with literal extents: linear arithmetic with `/ 16`, `% 16`,
  `/ 48`, `% 48`.
-/
import Idealize.ShloMosaic.Lib.Pipeline.Value
import Idealize.ShloMosaic.Lib.ValueIdx
import Idealize.ShloMosaic.Lib.ValueIdxRank6
import Idealize.ShloMosaic.Lib.ValueLayout

namespace Cert.PatchLayout

open Idealize.ShloMosaic Idealize.ShloMosaic.ValueIdx

variable {α : Type}

/-! ## The shapes -/

abbrev Patches : Shape := ⟨3, ![64, 1024, 768]⟩
abbrev Image : Shape := ⟨4, ![64, 512, 512, 3]⟩
abbrev Rows : Shape := ⟨3, ![64, 512, 1536]⟩
abbrev Split6 : Shape := ⟨6, ![64, 32, 32, 16, 16, 3]⟩
abbrev Swapped6 : Shape := ⟨6, ![64, 32, 16, 32, 16, 3]⟩
abbrev OnePatches : Shape := ⟨3, ![1, 1024, 768]⟩
abbrev OneRows : Shape := ⟨3, ![1, 512, 1536]⟩
abbrev PatchMat : Shape := ⟨2, ![1024, 768]⟩
abbrev RowMat : Shape := ⟨2, ![512, 1536]⟩
abbrev Split4 : Shape := ⟨4, ![32, 32, 16, 48]⟩
abbrev Swapped4 : Shape := ⟨4, ![32, 16, 32, 48]⟩

/-! ## The picture -/

/-- Where image entry `(b, h, w, ch)` sits in the patch array. -/
def src (b : Fin 64) (h : Fin 512) (w : Fin 512) (ch : Fin 3) : Patches.Idx :=
  ix3 b ⟨h.val / 16 * 32 + w.val / 16, by have := h.isLt; have := w.isLt; omega⟩
    ⟨h.val % 16 * 48 + (w.val % 16 * 3 + ch.val), by have := ch.isLt; omega⟩

/-- The assembled images. -/
def image (x : Patches.Idx → α) : Image.Idx → α := fun i => x (src (i 0) (i 1) (i 2) (i 3))

/-- Where entry `(b, h, q)` of the images with width and channel merged sits in the patch array. -/
def srcRows (b : Fin 64) (h : Fin 512) (q : Fin 1536) : Patches.Idx :=
  ix3 b ⟨h.val / 16 * 32 + q.val / 48, by have := h.isLt; have := q.isLt; omega⟩
    ⟨h.val % 16 * 48 + q.val % 48, by omega⟩

/-- The assembled images, width and channel merged. -/
def rows (x : Patches.Idx → α) : Rows.Idx → α := fun j => x (srcRows (j 0) (j 1) (j 2))

/-! ## Splitting the merged axis gives the picture -/

theorem srcRows_merge (b : Fin 64) (h : Fin 512) (w : Fin 512) (ch : Fin 3) (hq : w.val * 3 + ch.val < 1536) :
    srcRows b h ⟨w.val * 3 + ch.val, hq⟩ = src b h w ch := by
  have := ch.isLt
  funext a
  match a with
  | ⟨0, _⟩ => rfl
  | ⟨1, _⟩ => exact Fin.ext (by show h.val / 16 * 32 + (w.val * 3 + ch.val) / 48 = h.val / 16 * 32 + w.val / 16; omega)
  | ⟨2, _⟩ => exact Fin.ext (by show h.val % 16 * 48 + (w.val * 3 + ch.val) % 48 = h.val % 16 * 48 + (w.val % 16 * 3 + ch.val); omega)

/-- The merged-axis images reshaped to `64 × 512 × 512 × 3` are the picture. -/
theorem split_rows (x : Patches.Idx → α) (hc : Rows.ShapeCasts Image) : shapeCast Image (rows x) hc = image x := by
  funext i
  obtain ⟨b, h, w, ch, rfl⟩ : ∃ (b : Fin 64) (h : Fin 512) (w : Fin 512) (ch : Fin 3), i = ix4 b h w ch :=
    ⟨i 0, i 1, i 2, i 3, eq_ix4 i⟩
  have hch := ch.isLt
  have hw := w.isLt
  have hq : w.val * 3 + ch.val < 1536 := by omega
  refine (shapeCast_apply (rows x) hc (ix4 b h w ch) (ix3 b h ⟨w.val * 3 + ch.val, hq⟩) ?_).trans ?_
  · rw [Shape.rowMajor_val_three, Shape.rowMajor_val_four]
    show (b.val * 512 + h.val) * 1536 + (w.val * 3 + ch.val) = ((b.val * 512 + h.val) * 512 + w.val) * 3 + ch.val
    omega
  · show x (srcRows b h ⟨w.val * 3 + ch.val, hq⟩) = x (src b h w ch)
    rw [srcRows_merge]

/-! ## The six-axis spelling: split both axes, swap the two middle ones, merge -/

theorem six_axes (x : Patches.Idx → α) (h1 : Patches.ShapeCasts Split6)
    (h2 : Split6.Transposes [0, 1, 3, 2, 4, 5] Swapped6) (h3 : Swapped6.ShapeCasts Image) :
    shapeCast Image (transpose Swapped6 [0, 1, 3, 2, 4, 5] (shapeCast Split6 x h1) h2) h3 = image x := by
  funext i
  obtain ⟨b, h, w, ch, rfl⟩ : ∃ (b : Fin 64) (h : Fin 512) (w : Fin 512) (ch : Fin 3), i = ix4 b h w ch :=
    ⟨i 0, i 1, i 2, i 3, eq_ix4 i⟩
  have hh := h.isLt
  have hw := w.isLt
  have hch := ch.isLt
  have hb := b.isLt
  let r : Fin 32 := ⟨h.val / 16, by omega⟩
  let p : Fin 16 := ⟨h.val % 16, by omega⟩
  let c : Fin 32 := ⟨w.val / 16, by omega⟩
  let s : Fin 16 := ⟨w.val % 16, by omega⟩
  refine (shapeCast_apply _ h3 (ix4 b h w ch) (ix6 b r p c s ch) ?_).trans ?_
  · rw [Shape.rowMajor_val_six, Shape.rowMajor_val_four]
    show ((((b.val * 32 + h.val / 16) * 16 + h.val % 16) * 32 + w.val / 16) * 16 + w.val % 16) * 3 + ch.val
      = ((b.val * 512 + h.val) * 512 + w.val) * 3 + ch.val
    omega
  refine (transpose_apply [0, 1, 3, 2, 4, 5] _ h2 (ix6 b r p c s ch) (ix6 b r c p s ch) (fun a => ?_)).trans ?_
  · match a with
    | ⟨0, _⟩ => rfl
    | ⟨1, _⟩ => rfl
    | ⟨2, _⟩ => rfl
    | ⟨3, _⟩ => rfl
    | ⟨4, _⟩ => rfl
    | ⟨5, _⟩ => rfl
  refine (shapeCast_apply x h1 (ix6 b r c p s ch) (src b h w ch) ?_).trans rfl
  rw [Shape.rowMajor_val_three, Shape.rowMajor_val_six]
  show (b.val * 1024 + (h.val / 16 * 32 + w.val / 16)) * 768 + (h.val % 16 * 48 + (w.val % 16 * 3 + ch.val))
    = ((((b.val * 32 + h.val / 16) * 32 + w.val / 16) * 16 + h.val % 16) * 16 + w.val % 16) * 3 + ch.val
  omega

/-! ## The per-image spelling: one image's `1024 × 768` patches to its `512 × 1536` rows -/

theorem one_image (v : OnePatches.Idx → α) (h1 : OnePatches.ShapeCasts PatchMat) (h2 : PatchMat.ShapeCasts Split4)
    (h3 : Split4.Transposes [0, 2, 1, 3] Swapped4) (h4 : Swapped4.ShapeCasts RowMat) (h5 : RowMat.ShapeCasts OneRows)
    (u : Fin 1) (h : Fin 512) (q : Fin 1536) :
    shapeCast OneRows (shapeCast RowMat (transpose Swapped4 [0, 2, 1, 3] (shapeCast Split4 (shapeCast PatchMat v h1) h2) h3) h4) h5
        (ix3 u h q)
      = v (ix3 (0 : Fin 1) ⟨h.val / 16 * 32 + q.val / 48, by have := h.isLt; have := q.isLt; omega⟩
            ⟨h.val % 16 * 48 + q.val % 48, by omega⟩) := by
  have hh := h.isLt
  have hq := q.isLt
  let r : Fin 32 := ⟨h.val / 16, by omega⟩
  let p : Fin 16 := ⟨h.val % 16, by omega⟩
  let c : Fin 32 := ⟨q.val / 48, by omega⟩
  let s : Fin 48 := ⟨q.val % 48, by omega⟩
  refine (shapeCast_ab_1ab_apply _ h5 u h q).trans ?_
  refine (shapeCast_apply _ h4 (ix2 h q) (ix4 r p c s) ?_).trans ?_
  · rw [Shape.rowMajor_val_four, Shape.rowMajor_val_two]
    show ((h.val / 16 * 16 + h.val % 16) * 32 + q.val / 48) * 48 + q.val % 48 = h.val * 1536 + q.val
    omega
  refine (transpose_apply [0, 2, 1, 3] _ h3 (ix4 r p c s) (ix4 r c p s) (fun a => ?_)).trans ?_
  · match a with
    | ⟨0, _⟩ => rfl
    | ⟨1, _⟩ => rfl
    | ⟨2, _⟩ => rfl
    | ⟨3, _⟩ => rfl
  refine (shapeCast_apply _ h2 (ix4 r c p s)
    (ix2 (⟨h.val / 16 * 32 + q.val / 48, by omega⟩ : Fin 1024) (⟨h.val % 16 * 48 + q.val % 48, by omega⟩ : Fin 768)) ?_).trans ?_
  · rw [Shape.rowMajor_val_two, Shape.rowMajor_val_four]
    show (h.val / 16 * 32 + q.val / 48) * 768 + (h.val % 16 * 48 + q.val % 48)
      = ((h.val / 16 * 32 + q.val / 48) * 16 + h.val % 16) * 48 + q.val % 48
    omega
  exact shapeCast_1ab_ab_apply v h1 _ _

end Cert.PatchLayout
-- ==== Proof.KernelSide.lean ====
/-
  The kernel's result as the picture. The grid has one point per image `b`. At point `b` the body loads image `b`'s
  `1024 × 768` patch matrix whole, splits it to `32 × 32 × 16 × 48` (patch row, patch column, pixel row, pixel column
  with channel), swaps patch column with pixel row, merges to `512 × 1536` and stores that whole: block `b` of the
  `64 × 512 × 1536` array of images with width and channel merged. The `64` blocks tile that array, so after the region
  it holds `rows` of the patch array; the one host operation after the region splits the merged axis `1536 = 512 × 3`,
  which gives `image`.
-/
import proofs.«171302_j82222853915002_1_alg».proof.Proof.Gen.KernelIdeal.Frame
import proofs.«171302_j82222853915002_1_alg».proof.Proof.Layout
import Idealize.ShloMosaic.Lib.Pipeline.Value
import Idealize.ShloMosaic.Lib.StableHlo.Run

set_option maxRecDepth 16384

noncomputable section

namespace Cert.KernelIdeal.Assembled

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.StableHlo
open Cert.PatchLayout (rows image srcRows)

variable {F : FTy → Type} [FloatOps F]
variable (m : (ℓ : Loc nD τ sig) → Buf (Elt F) ℓ) (ρ : Dev nD → PrngReg)

/-- The body's load and store rectangles start at the origin of their blocks. -/
theorem origin3 : (![0, 0, 0] : Fin 3 → Nat) = fun _ => 0 := funext fun a => by fin_cases a <;> rfl

/-- The index maps over the grid: both windows' blocks are numbered by the image alone, `(b, 0, 0)`, and the input
    block at a point has the output block's image number. -/
theorem index_facts : ∀ t : Fin cfg0.N,
    win0_0.index t (0 : Fin 3) = win0_1.index t (0 : Fin 3) ∧ win0_0.index t (1 : Fin 3) = 0
    ∧ win0_0.index t (2 : Fin 3) = 0 ∧ win0_1.index t (1 : Fin 3) = 0 ∧ win0_1.index t (2 : Fin 3) = 0
    ∧ win0_1.index t (0 : Fin 3) < 64 :=
  (by decide +kernel : ∀ t : Fin grid0.N, _)

/-- Every image is some point's output block. -/
theorem index_onto : ∀ b : Fin 64, ∃ t : Fin cfg0.N, win0_1.index t = ![b.val, 0, 0] :=
  (by decide +kernel : ∀ b : Fin 64, ∃ t : Fin grid0.N, win0_1.index t = ![b.val, 0, 0])

/-- What a point writes back is its block of `rows` of the patch array: entry `(h, q)` of the stored block is entry
    `(h / 16 * 32 + q / 48, h % 16 * 48 + q % 48)` of the loaded block (the per-image spelling), and the two blocks
    sit at the same image number of their arrays. -/
theorem flushed_rows (c : Dev nD) (t : Fin cfg0.N) :
    (dats m 0 c).flushed 1 t = ((cfg0.win 1).blk t).view.read (Elt F) (rows (V m c main_arg0)) := by
  show (cfg0.win 1).cut (grid0.coords t) ((dats m 0 c).after 1 t) = _
  rw [after0_1]
  unfold out0_1
  rw [View.canon_unit_zero origin3]
  simp only [View.ld_unit_zero (S := S1x1024x768) origin3]
  obtain ⟨e0, e1, e2, e3, e4, e5⟩ := index_facts t
  funext j
  obtain ⟨u, h, q, rfl⟩ : ∃ (u : Fin 1) (h : Fin 512) (q : Fin 1536), j = ix3 u h q := ⟨j 0, j 1, j 2, eq_ix3 j⟩
  show k0_pay1 (iblk m c 0 t) (ix3 u h q) = rows (V m c main_arg0) (((cfg0.win 1).blk t).view.emb (ix3 u h q))
  unfold k0_pay1
  refine (Cert.PatchLayout.one_image (iblk m c 0 t) _ _ _ _ _ u h q).trans ?_
  unfold iblk rows
  show V m c main_arg0 (((cfg0.win 0).blk t).view.emb _) = V m c main_arg0 (srcRows _ _ _)
  refine congrArg (V m c main_arg0) (funext fun a => Fin.ext ?_)
  have hu : u.val = 0 := by omega
  match a with
  | ⟨0, _⟩ =>
    show win0_0.index t (0 : Fin 3) * 1 + 1 * 0 = win0_1.index t (0 : Fin 3) * 1 + 1 * u.val
    omega
  | ⟨1, _⟩ =>
    show win0_0.index t (1 : Fin 3) * 1024 + 1 * (h.val / 16 * 32 + q.val / 48)
      = (win0_1.index t (1 : Fin 3) * 512 + 1 * h.val) / 16 * 32 + (win0_1.index t (2 : Fin 3) * 1536 + 1 * q.val) / 48
    omega
  | ⟨2, _⟩ =>
    show win0_0.index t (2 : Fin 3) * 768 + 1 * (h.val % 16 * 48 + q.val % 48)
      = (win0_1.index t (1 : Fin 3) * 512 + 1 * h.val) % 16 * 48 + (win0_1.index t (2 : Fin 3) * 1536 + 1 * q.val) % 48
    omega

/-- An index lies in a point's output block iff each coordinate lies in the block's range on its axis. -/
theorem mem_block (t : Fin cfg0.N) (i : S64x512x1536.Idx) :
    i ∈ ((cfg0.win 1).blk t).view.set ↔ ∀ a : Fin 3, win0_1.index t a * S1x512x1536.size a ≤ (i a).val
      ∧ (i a).val < win0_1.index t a * S1x512x1536.size a + S1x512x1536.size a := by
  show i ∈ ((View.whole main_v0).slice (win0_1.rect t)).set ↔ _
  rw [View.set_slice_whole, Rect.mem_set_unit]
  exact Iff.rfl

/-- The output blocks cover the array: index `(b, h, q)` lies in the block of the point whose image number is `b`. -/
theorem covered (i : S64x512x1536.Idx) :
    ∃ t : Fin cfg0.N, (cfg0.win 1).flush t = true ∧ i ∈ ((cfg0.win 1).blk t).view.set := by
  obtain ⟨t, ht⟩ := index_onto (i 0)
  have q0 : win0_1.index t (0 : Fin 3) = (i 0).val := congrFun ht 0
  have q1 : win0_1.index t (1 : Fin 3) = 0 := congrFun ht 1
  have q2 : win0_1.index t (2 : Fin 3) = 0 := congrFun ht 2
  have h1 : (i 1).val < 512 := (i 1).isLt
  have h2 : (i 2).val < 1536 := (i 2).isLt
  refine ⟨t, flush0_1 t, ?_⟩
  rw [mem_block]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 512 ≤ (i 1).val ∧ (i 1).val < win0_1.index t (1 : Fin 3) * 512 + 512
    omega
  | ⟨2, _⟩ =>
    show win0_1.index t (2 : Fin 3) * 1536 ≤ (i 2).val ∧ (i 2).val < win0_1.index t (2 : Fin 3) * 1536 + 1536
    omega

/-- After the region the merged-axis array holds `rows` of the patch array. -/
theorem rows_after (c : Dev nD) : (dats m 0 c).arrAt 1 cfg0.N = rows (V m c main_arg0) :=
  (dats m 0 c).arrAt_eq_of_cover 1 (rows (V m c main_arg0)) (fun t _ => flushed_rows m c t) covered

/-- The result buffer is no window's array: the region leaves it to the host operation after it. -/
theorem result_rest : main_v1 ∈ Pipeline.restRefs sig (cfgs 0).spec :=
  Pipeline.mem_restRefs_of main_v1 rfl (fun w => by fin_cases w <;> decide)

/-- The host reshape after the region, applied to `rows`, is the picture. -/
theorem tail_image (c : Dev nD) :
    Pipeline.afterTail₀ cfgs (dats m) 0 (V0 m) [hostOps1] c main_v1 = image (m ((c : Thread nD τ).loc main_arg0)) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = rows (m ((c : Thread nD τ).loc main_arg0)) :=
    (Pipeline.withArrays_arr spec0 launch0.win.arr_inj c _ _ 1).trans ((rows_after m c).trans (by rw [V_main_arg0]))
  show shapeCast S64x512x512x3 (Pipeline.withArrays (cfgs 0).spec c (V0 m c) (fun w => (dats m 0 c).arrAt w (cfgs 0).N)
      (Proc.tc.devRef main_v0)) shapeCasts_S64x512x1536_S64x512x512x3 = _
  rw [e]
  exact Cert.PatchLayout.split_rows _ _

/-- Every weakly fair execution of the kernel program ends with its result at the picture of the patch array it was
    given, that array unchanged. -/
theorem run : θ_run defs (onTc (τ := τ) (main (F := F))) ⟨m, fun _ => 0, ρ⟩ fun r => ∀ c : Dev nD,
      r.2.mem ((c.tc : Thread nD τ).loc main_v1) = image (m ((c.tc : Thread nD τ).loc main_arg0))
      ∧ r.2.mem ((c.tc : Thread nD τ).loc main_arg0) = m ((c.tc : Thread nD τ).loc main_arg0) :=
  (θ_run defs _ _).mono (fun r h c => ⟨((h c).2 main_v1 result_rest).trans (tail_image m c),
      ((h c).1 0).trans (((dats m 0 c).arrAt_in 0 rfl _).trans ((A_eq m c 0).trans (V_main_arg0 m c)))⟩)
    (run_main m ρ)

end Cert.KernelIdeal.Assembled

end
-- ==== Proof.RefSide.lean ====
/-
  The reference's result as the picture. The reference splits the patch axis into `32 × 32` patches and each patch's
  `768` numbers into `16 × 16 × 3`, swaps the patch-column axis with the pixel-row axis, and merges
  `(patch row, pixel row)` into the image row and `(patch column, pixel column)` into the image column: the six-axis
  spelling of the picture.
-/
import proofs.«171302_j82222853915002_1_alg».proof.Proof.Gen.ReferenceIdeal.Run
import proofs.«171302_j82222853915002_1_alg».proof.Proof.Layout

noncomputable section

namespace Cert.ReferenceIdeal.Assembled

open Cert.ReferenceIdeal Cert.ReferenceIdeal.Gen Idealize.ShloMosaic Idealize.ShloMosaic.TcCoe Idealize.SL.Sem

variable {F : FTy → Type} [FloatOps F]

/-- Every weakly fair execution of the reference ends with its result at the picture of the patch array it was given,
    that array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = Cert.PatchLayout.image (m ((c.tc : Thread nD τ).loc main_arg0))
      ∧ r.2.mem ((c.tc : Thread nD τ).loc main_arg0) = m ((c.tc : Thread nD τ).loc main_arg0) :=
  (θ_run defs _ _).mono (fun _ h c => ⟨(h c).1.trans (Cert.PatchLayout.six_axes _ _ _ _), (h c).2⟩)
    (Cert.ReferenceIdeal.Value.run (F := F) m ρ)

end Cert.ReferenceIdeal.Assembled

end
-- ==== Proof.lean ====
/-
  Patches to images: `64` batches of `32 × 32` patches of `16 × 16` pixels with `3` channels, given as a
  `64 × 1024 × 768` array, assembled into `64` images of `512 × 512 × 3`. Both programs only move elements:

    result (b, h, w, ch) = patches (b, h / 16 * 32 + w / 16, h % 16 * 48 + w % 16 * 3 + ch)        (`PatchLayout.image`).

  The reference spells this with six axes (split, swap patch column with pixel row, merge). The kernel does it one
  image per grid point with width and channel merged into one axis of `1536` (split to four axes, swap, merge), and a
  host reshape after the region splits `1536 = 512 × 3`. A reshape keeps row-major position and a transpose permutes
  coordinates, so each side is the patch array read through an index map, and the two maps agree by arithmetic on
  row-major positions (Proof/Layout.lean). No element is ever combined with another, so nothing depends on the
  inputs being finite, and the idealization rewrote nothing (`preserves` is `True`).

  The kernel's frames are the generated ones; the reference's frame is its run with the result dropped.
-/
import proofs.«171302_j82222853915002_1_alg».proof.Defs
import proofs.«171302_j82222853915002_1_alg».proof.Proof.Gen.Kernel
import proofs.«171302_j82222853915002_1_alg».proof.Proof.Gen.Kernel.Frame
import proofs.«171302_j82222853915002_1_alg».proof.Proof.Gen.KernelIdeal
import proofs.«171302_j82222853915002_1_alg».proof.Proof.Gen.KernelIdeal.Frame
import proofs.«171302_j82222853915002_1_alg».proof.Proof.Gen.ReferenceIdeal
import proofs.«171302_j82222853915002_1_alg».proof.Proof.Gen.Pre_finite_inputs
import proofs.«171302_j82222853915002_1_alg».proof.Proof.KernelSide
import proofs.«171302_j82222853915002_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Assembled.run (F := Ideal) m ρ)

theorem preserves : Cert.preserves_Kernel_KernelIdeal := trivial

/-- Both programs end at the picture of the patch array they were given, and they were given the same one. -/
theorem algebraic : Cert.algebraic_KernelIdeal_ReferenceIdeal := by
  intro m ρ m' ρ' _ hagree
  refine ⟨_, Cert.KernelIdeal.Assembled.run (F := Ideal) m ρ, ?_⟩
  refine (θ_run Cert.ReferenceIdeal.defs _ _).mono (fun _ h c => ⟨?_, (h c).2⟩)
    (Cert.ReferenceIdeal.Assembled.run (F := Ideal) m' ρ')
  exact (h c).1.trans (congrArg Cert.PatchLayout.image (hagree c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
